-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S512x500 : Shape := ⟨2, ![512, 500]⟩
abbrev S500 : Shape := ⟨1, ![500]⟩
abbrev S500x1 : Shape := ⟨2, ![500, 1]⟩
abbrev S1 : Shape := ⟨1, ![1]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x500 : S_.BroadcastsInDim S512x500 (![] : Fin 0 → Fin S512x500.rank)
  reducesTo_S512x500_S_d0_1 : S512x500.ReducesTo [0, 1] S_
  bcast_S_S500 : S_.BroadcastsInDim S500 (![] : Fin 0 → Fin S500.rank)
  reducesTo_S500_S_d0 : S500.ReducesTo [0] S_
  bcast_S_S500x1 : S_.BroadcastsInDim S500x1 (![] : Fin 0 → Fin S500x1.rank)
  reducesTo_S500x1_S_d0_1 : S500x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S500x1 1) : IVec S_ 1 :=
  let main_c_5 : IVec S_ 1 := constantI S_ 1 1#1
  let main_v17 : IVec S_ 1 := (fun x v => Host.reduce IntOp.andi x v reducesTo_S500x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S4096x512 .f32) (main_arg1 : FVec F S512x500 .f32) (main_arg2 : FVec F S500 .f32) (main_arg3 : FVec F S500x1 .f32) (main_arg4 : FVec F S1 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x500 .f32 := Host.absf main_arg1
  let main_cst_0 : FVec F S_ .f32 := constant S_ .f32 0x7F800000#32
  let main_v5 : FVec F S512x500 .f32 := broadcastInDim S512x500 ![] bcast_S_S512x500 main_cst_0
  let main_v6 : IVec S512x500 1 := cmpf .olt main_v4 main_v5
  let main_c_1 : IVec S_ 1 := constantI S_ 1 1#1
  let main_v7 : IVec S_ 1 := (fun x v => Host.reduce IntOp.andi x v reducesTo_S512x500_S_d0_1 h_S_) main_v6 main_c_1
  let main_v8 : IVec S_ 1 := andi main_v3 main_v7
  let main_v9 : FVec F S500 .f32 := Host.absf main_arg2
  let main_cst_2 : FVec F S_ .f32 := constant S_ .f32 0x7F800000#32
  let main_v10 : FVec F S500 .f32 := broadcastInDim S500 ![] bcast_S_S500 main_cst_2
  let main_v11 : IVec S500 1 := cmpf .olt main_v9 main_v10
  let main_c_3 : IVec S_ 1 := constantI S_ 1 1#1
  let main_v12 : IVec S_ 1 := (fun x v => Host.reduce IntOp.andi x v reducesTo_S500_S_d0 h_S_) main_v11 main_c_3
  let main_v13 : IVec S_ 1 := andi main_v8 main_v12
  let main_v14 : FVec F S500x1 .f32 := Host.absf main_arg3
  let main_cst_4 : FVec F S_ .f32 := constant S_ .f32 0x7F800000#32
  let main_v15 : FVec F S500x1 .f32 := broadcastInDim S500x1 ![] bcast_S_S500x1 main_cst_4
  let main_v16 : IVec S500x1 1 := cmpf .olt main_v14 main_v15
  fn_part1 (F := F) main_arg4 main_v13 main_v16
-- ==== Kernel.lean ====
abbrev S4096x512 : Shape := ⟨2, ![4096, 512]⟩
abbrev S512x500 : Shape := ⟨2, ![512, 500]⟩
abbrev S500 : Shape := ⟨1, ![500]⟩
abbrev S500x1 : Shape := ⟨2, ![500, 1]⟩
abbrev S1 : Shape := ⟨1, ![1]⟩
abbrev S4096x1 : Shape := ⟨2, ![4096, 1]⟩
abbrev S1024x512 : Shape := ⟨2, ![1024, 512]⟩
abbrev S1024x1 : Shape := ⟨2, ![1024, 1]⟩
abbrev S1024x500 : Shape := ⟨2, ![1024, 500]⟩
abbrev S1x500 : Shape := ⟨2, ![1, 500]⟩
abbrev S1x1 : Shape := ⟨2, ![1, 1]⟩
abbrev S3968 : Shape := ⟨1, ![3968]⟩
abbrev S3968x1 : Shape := ⟨2, ![3968, 1]⟩
abbrev S128 : Shape := ⟨1, ![128]⟩
abbrev S1x128 : Shape := ⟨2, ![1, 128]⟩
abbrev S3968x128 : Shape := ⟨2, ![3968, 128]⟩
abbrev S_ : Shape := ⟨0, ![]⟩
abbrev S3968x128x1 : Shape := ⟨3, ![3968, 128, 1]⟩
abbrev S507904x1 : Shape := ⟨2, ![507904, 1]⟩

abbrev nBuf : Space → Nat
  | .hbm => 23
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S512x500, .f32⟩
  | .hbm, ⟨2, _⟩ => ⟨S500, .f32⟩
  | .hbm, ⟨3, _⟩ => ⟨S500x1, .f32⟩
  | .hbm, ⟨4, _⟩ => ⟨S1, .f32⟩
  | .hbm, ⟨5, _⟩ => ⟨S4096x1, .f32⟩
  | .hbm, ⟨6, _⟩ => ⟨S3968, .i32⟩
  | .hbm, ⟨7, _⟩ => ⟨S3968x1, .i32⟩
  | .hbm, ⟨8, _⟩ => ⟨S128, .i32⟩
  | .hbm, ⟨9, _⟩ => ⟨S1x128, .i32⟩
  | .hbm, ⟨10, _⟩ => ⟨S3968x128, .i32⟩
  | .hbm, ⟨11, _⟩ => ⟨S3968x128, .i32⟩
  | .hbm, ⟨12, _⟩ => ⟨S3968x128, .i32⟩
  | .hbm, ⟨13, _⟩ => ⟨S_, .i32⟩
  | .hbm, ⟨14, _⟩ => ⟨S3968x128, .i32⟩
  | .hbm, ⟨15, _⟩ => ⟨S3968x128, .i1⟩
  | .hbm, ⟨16, _⟩ => ⟨S_, .i32⟩
  | .hbm, ⟨17, _⟩ => ⟨S3968x128, .i32⟩
  | .hbm, ⟨18, _⟩ => ⟨S3968x128, .i32⟩
  | .hbm, ⟨19, _⟩ => ⟨S3968x128, .i32⟩
  | .hbm, ⟨20, _⟩ => ⟨S3968x128x1, .i32⟩
  | .hbm, ⟨21, _⟩ => ⟨S3968x128x1, .f32⟩
  | .hbm, ⟨22, _⟩ => ⟨S507904x1, .f32⟩
  | .local _ .vmem, ⟨0, _⟩ => ⟨S1024x512, .f32⟩
  | .local _ .vmem, ⟨1, _⟩ => ⟨S1024x512, .f32⟩
  | .local _ .vmem, ⟨2, _⟩ => ⟨S512x500, .f32⟩
  | .local _ .vmem, ⟨3, _⟩ => ⟨S500, .f32⟩
  | .local _ .vmem, ⟨4, _⟩ => ⟨S500x1, .f32⟩
  | .local _ .vmem, ⟨5, _⟩ => ⟨S1, .f32⟩
  | .local _ .vmem, ⟨6, _⟩ => ⟨S1024x1, .f32⟩
  | .local _ .vmem, ⟨7, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S500x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x500_S512x500_0_0 : ∀ a, (![0, 0] : Fin 2 → Nat) a + S512x500.size a ≤ S512x500.size a
  h_S512x500 : 0 < S512x500.numel
  inb_S500_S500_0 : ∀ a, (![0] : Fin 1 → Nat) a + S500.size a ≤ S500.size a
  h_S500 : 0 < S500.numel
  shapeCasts_S500_S1x500 : S500.ShapeCasts S1x500
  broadcasts_S1x500_S1024x500 : S1x500.Broadcasts S1024x500
  inb_S500x1_S500x1_0_0 : ∀ a, (![0, 0] : Fin 2 → Nat) a + S500x1.size a ≤ S500x1.size a
  h_S500x1 : 0 < S500x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  bcast_S3968_S3968x1_0 : S3968.BroadcastsInDim S3968x1 (![0] : Fin 1 → Fin S3968x1.rank)
  bcast_S128_S1x128_1 : S128.BroadcastsInDim S1x128 (![1] : Fin 1 → Fin S1x128.rank)
  bcast_S3968x1_S3968x128_0_1 : S3968x1.BroadcastsInDim S3968x128 (![0, 1] : Fin 2 → Fin S3968x128.rank)
  bcast_S1x128_S3968x128_0_1 : S1x128.BroadcastsInDim S3968x128 (![0, 1] : Fin 2 → Fin S3968x128.rank)
  bcast_S_S3968x128 : S_.BroadcastsInDim S3968x128 (![] : Fin 0 → Fin S3968x128.rank)
  bcast_S3968x128_S3968x128x1_0_1 : S3968x128.BroadcastsInDim S3968x128x1 (![0, 1] : Fin 2 → Fin S3968x128x1.rank)
  shapeCasts_S3968x128x1_S507904x1 : S3968x128x1.ShapeCasts S507904x1
  dot_S1024x512_S512x500_S1024x500_1_0_0_1_n_n_wf : DotDims.WF S1024x512 S512x500 S1024x500 [1] [0] [0] [1] [] []
  dot_S1024x500_S500x1_S1024x1_1_0_0_1_n_n_wf : DotDims.WF S1024x500 S500x1 S1024x1 [1] [0] [0] [1] [] []
  gather_S4096x1_S3968x128x1_S3968x128x1_2_0_n_n_0_2_11_wf : GatherDims.WF S4096x1 S3968x128x1 S3968x128x1 [2] [0] [] [0] [] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x500.size a ≤ S512x500.size a
  hwx0_1 : ∀ i : grid0.Coords, EltTy.bits .f32 = 32 ∨ (Rect.block (s := S512x500) S512x500.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S500.size a ≤ S500.size a
  hwx0_2 : ∀ i : grid0.Coords, EltTy.bits .f32 = 32 ∨ (Rect.block (s := S500) S500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S500x1.size a ≤ S500x1.size a
  hwx0_3 : ∀ i : grid0.Coords, EltTy.bits .f32 = 32 ∨ (Rect.block (s := S500x1) S500x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)

variable [Facts₀]

def dot_S1024x512_S512x500_S1024x500_1_0_0_1_n_n : DotDims S1024x512 S512x500 S1024x500 where
  lhsContracting := [1]
  rhsContracting := [0]
  lhsNonContracting := [0]
  rhsNonContracting := [1]
  lhsBatch := []
  rhsBatch := []
  wf := dot_S1024x512_S512x500_S1024x500_1_0_0_1_n_n_wf
def dot_S1024x500_S500x1_S1024x1_1_0_0_1_n_n : DotDims S1024x500 S500x1 S1024x1 where
  lhsContracting := [1]
  rhsContracting := [0]
  lhsNonContracting := [0]
  rhsNonContracting := [1]
  lhsBatch := []
  rhsBatch := []
  wf := dot_S1024x500_S500x1_S1024x1_1_0_0_1_n_n_wf
def gather_S4096x1_S3968x128x1_S3968x128x1_2_0_n_n_0_2_11 : GatherDims S4096x1 S3968x128x1 S3968x128x1 where
  offsetDims := [2]
  collapsedSliceDims := [0]
  operandBatchingDims := []
  startIndicesBatchingDims := []
  startIndexMap := [0]
  indexVectorDim := 2
  sliceSizes := ![1, 1]
  wf := gather_S4096x1_S3968x128x1_S3968x128x1_2_0_n_n_0_2_11_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S500x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x512 : Shape := ⟨2, ![4096, 512]⟩
abbrev S512x500 : Shape := ⟨2, ![512, 500]⟩
abbrev S500 : Shape := ⟨1, ![500]⟩
abbrev S500x1 : Shape := ⟨2, ![500, 1]⟩
abbrev S1 : Shape := ⟨1, ![1]⟩
abbrev S3968 : Shape := ⟨1, ![3968]⟩
abbrev S3968x1 : Shape := ⟨2, ![3968, 1]⟩
abbrev S128 : Shape := ⟨1, ![128]⟩
abbrev S1x128 : Shape := ⟨2, ![1, 128]⟩
abbrev S3968x128 : Shape := ⟨2, ![3968, 128]⟩
abbrev S_ : Shape := ⟨0, ![]⟩
abbrev S3968x128x1 : Shape := ⟨3, ![3968, 128, 1]⟩
abbrev S3968x128x512 : Shape := ⟨3, ![3968, 128, 512]⟩
abbrev S3968x128x500 : Shape := ⟨3, ![3968, 128, 500]⟩
abbrev S1x1x500 : Shape := ⟨3, ![1, 1, 500]⟩
abbrev S1x1x1 : Shape := ⟨3, ![1, 1, 1]⟩
abbrev S507904x1 : Shape := ⟨2, ![507904, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x500, .f32⟩
  | .hbm, ⟨2, _⟩ => ⟨S500, .f32⟩
  | .hbm, ⟨3, _⟩ => ⟨S500x1, .f32⟩
  | .hbm, ⟨4, _⟩ => ⟨S1, .f32⟩
  | .hbm, ⟨5, _⟩ => ⟨S3968, .i32⟩
  | .hbm, ⟨6, _⟩ => ⟨S3968x1, .i32⟩
  | .hbm, ⟨7, _⟩ => ⟨S128, .i32⟩
  | .hbm, ⟨8, _⟩ => ⟨S1x128, .i32⟩
  | .hbm, ⟨9, _⟩ => ⟨S3968x128, .i32⟩
  | .hbm, ⟨10, _⟩ => ⟨S3968x128, .i32⟩
  | .hbm, ⟨11, _⟩ => ⟨S3968x128, .i32⟩
  | .hbm, ⟨12, _⟩ => ⟨S_, .i32⟩
  | .hbm, ⟨13, _⟩ => ⟨S3968x128, .i32⟩
  | .hbm, ⟨14, _⟩ => ⟨S3968x128, .i1⟩
  | .hbm, ⟨15, _⟩ => ⟨S_, .i32⟩
  | .hbm, ⟨16, _⟩ => ⟨S3968x128, .i32⟩
  | .hbm, ⟨17, _⟩ => ⟨S3968x128, .i32⟩
  | .hbm, ⟨18, _⟩ => ⟨S3968x128, .i32⟩
  | .hbm, ⟨19, _⟩ => ⟨S3968x128x1, .i32⟩
  | .hbm, ⟨20, _⟩ => ⟨S3968x128x512, .f32⟩
  | .hbm, ⟨21, _⟩ => ⟨S3968x128x500, .f32⟩
  | .hbm, ⟨22, _⟩ => ⟨S1x1x500, .f32⟩
  | .hbm, ⟨23, _⟩ => ⟨S3968x128x500, .f32⟩
  | .hbm, ⟨24, _⟩ => ⟨S3968x128x500, .f32⟩
  | .hbm, ⟨25, _⟩ => ⟨S3968x128x1, .f32⟩
  | .hbm, ⟨26, _⟩ => ⟨S1x1x1, .f32⟩
  | .hbm, ⟨27, _⟩ => ⟨S3968x128x1, .f32⟩
  | .hbm, ⟨28, _⟩ => ⟨S3968x128x1, .f32⟩
  | .hbm, ⟨29, _⟩ => ⟨S507904x1, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  bcast_S3968_S3968x1_0 : S3968.BroadcastsInDim S3968x1 (![0] : Fin 1 → Fin S3968x1.rank)
  bcast_S128_S1x128_1 : S128.BroadcastsInDim S1x128 (![1] : Fin 1 → Fin S1x128.rank)
  bcast_S3968x1_S3968x128_0_1 : S3968x1.BroadcastsInDim S3968x128 (![0, 1] : Fin 2 → Fin S3968x128.rank)
  bcast_S1x128_S3968x128_0_1 : S1x128.BroadcastsInDim S3968x128 (![0, 1] : Fin 2 → Fin S3968x128.rank)
  bcast_S_S3968x128 : S_.BroadcastsInDim S3968x128 (![] : Fin 0 → Fin S3968x128.rank)
  bcast_S3968x128_S3968x128x1_0_1 : S3968x128.BroadcastsInDim S3968x128x1 (![0, 1] : Fin 2 → Fin S3968x128x1.rank)
  bcast_S500_S1x1x500_2 : S500.BroadcastsInDim S1x1x500 (![2] : Fin 1 → Fin S1x1x500.rank)
  bcast_S1x1x500_S3968x128x500_0_1_2 : S1x1x500.BroadcastsInDim S3968x128x500 (![0, 1, 2] : Fin 3 → Fin S3968x128x500.rank)
  bcast_S1_S1x1x1_2 : S1.BroadcastsInDim S1x1x1 (![2] : Fin 1 → Fin S1x1x1.rank)
  bcast_S1x1x1_S3968x128x1_0_1_2 : S1x1x1.BroadcastsInDim S3968x128x1 (![0, 1, 2] : Fin 3 → Fin S3968x128x1.rank)
  shapeCasts_S3968x128x1_S507904x1 : S3968x128x1.ShapeCasts S507904x1
  gather_S4096x512_S3968x128x1_S3968x128x512_2_0_n_n_0_2_1512_wf : GatherDims.WF S4096x512 S3968x128x1 S3968x128x512 [2] [0] [] [0] [] 2 ![1, 512]
  dot_S3968x128x512_S512x500_S3968x128x500_2_0_01_1_n_n_wf : DotDims.WF S3968x128x512 S512x500 S3968x128x500 [2] [0] [0, 1] [1] [] []
  dot_S3968x128x500_S500x1_S3968x128x1_2_0_01_1_n_n_wf : DotDims.WF S3968x128x500 S500x1 S3968x128x1 [2] [0] [0, 1] [1] [] []

variable [Facts₀]

def gather_S4096x512_S3968x128x1_S3968x128x512_2_0_n_n_0_2_1512 : GatherDims S4096x512 S3968x128x1 S3968x128x512 where
  offsetDims := [2]
  collapsedSliceDims := [0]
  operandBatchingDims := []
  startIndicesBatchingDims := []
  startIndexMap := [0]
  indexVectorDim := 2
  sliceSizes := ![1, 512]
  wf := gather_S4096x512_S3968x128x1_S3968x128x512_2_0_n_n_0_2_1512_wf
def dot_S3968x128x512_S512x500_S3968x128x500_2_0_01_1_n_n : DotDims S3968x128x512 S512x500 S3968x128x500 where
  lhsContracting := [2]
  rhsContracting := [0]
  lhsNonContracting := [0, 1]
  rhsNonContracting := [1]
  lhsBatch := []
  rhsBatch := []
  wf := dot_S3968x128x512_S512x500_S3968x128x500_2_0_01_1_n_n_wf
def dot_S3968x128x500_S500x1_S3968x128x1_2_0_01_1_n_n : DotDims S3968x128x500 S500x1 S3968x128x1 where
  lhsContracting := [2]
  rhsContracting := [0]
  lhsNonContracting := [0, 1]
  rhsNonContracting := [1]
  lhsBatch := []
  rhsBatch := []
  wf := dot_S3968x128x500_S500x1_S3968x128x1_2_0_01_1_n_n_wf

class Facts : Prop extends Facts₀ where

variable [Facts]
-- ==== Proof.KernelBody.lean ====
/-
  What one grid point's body stores, read at an index, at the ideal instance.

  The body takes a block of 1024 rows of `x` and the whole of W1, b1, W2, b2. It contracts the block with W1 into a
  zero accumulator, adds b1 along the rows, contracts the result with W2 into a zero accumulator and adds b2. The
  changes of float format in between are the identity on the extended reals, and a contraction into a zero
  accumulator is the plain sum over the contracted axis. So the stored value at (p, q) is

      (∑ h < 500, ((∑ a < 512, x[p, a] · W1[a, h]) + b1[h]) · W2[h, q]) + b2[0].
-/
import proofs.«123455_j62594853372269_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.TcCoe Idealize.ShloMosaic.ValueIdx

/-! ## The two contractions: which operand entries a result entry multiplies -/

theorem mm1_lhs_0 (i : S1024x500.Idx) (q : dot_S1024x512_S512x500_S1024x500_1_0_0_1_n_n.contr.Idx) :
    (dot_S1024x512_S512x500_S1024x500_1_0_0_1_n_n.lhsIdx i q 0).val = (i 0).val := by
  unfold DotDims.lhsIdx
  rw [dif_neg (show ¬(0 : Fin S1024x512.rank) ∈ dot_S1024x512_S512x500_S1024x500_1_0_0_1_n_n.lhsBatch by decide), dif_pos (show (0 : Fin S1024x512.rank) ∈ dot_S1024x512_S512x500_S1024x500_1_0_0_1_n_n.lhsNonContracting by decide)]
  rfl
theorem mm1_lhs_1 (i : S1024x500.Idx) (q : dot_S1024x512_S512x500_S1024x500_1_0_0_1_n_n.contr.Idx) :
    (dot_S1024x512_S512x500_S1024x500_1_0_0_1_n_n.lhsIdx i q 1).val = (q ⟨0, by decide⟩).val :=
  dot_S1024x512_S512x500_S1024x500_1_0_0_1_n_n.lhsIdx_val_of_single rfl i q
theorem mm1_rhs_0 (i : S1024x500.Idx) (q : dot_S1024x512_S512x500_S1024x500_1_0_0_1_n_n.contr.Idx) :
    (dot_S1024x512_S512x500_S1024x500_1_0_0_1_n_n.rhsIdx i q 0).val = (q ⟨0, by decide⟩).val :=
  dot_S1024x512_S512x500_S1024x500_1_0_0_1_n_n.rhsIdx_val_of_single rfl i q
theorem mm1_rhs_1 (i : S1024x500.Idx) (q : dot_S1024x512_S512x500_S1024x500_1_0_0_1_n_n.contr.Idx) :
    (dot_S1024x512_S512x500_S1024x500_1_0_0_1_n_n.rhsIdx i q 1).val = (i 1).val := by
  unfold DotDims.rhsIdx
  rw [dif_neg (show ¬(1 : Fin S512x500.rank) ∈ dot_S1024x512_S512x500_S1024x500_1_0_0_1_n_n.rhsBatch by decide), dif_pos (show (1 : Fin S512x500.rank) ∈ dot_S1024x512_S512x500_S1024x500_1_0_0_1_n_n.rhsNonContracting by decide)]
  rfl

theorem mm2_lhs_0 (i : S1024x1.Idx) (q : dot_S1024x500_S500x1_S1024x1_1_0_0_1_n_n.contr.Idx) :
    (dot_S1024x500_S500x1_S1024x1_1_0_0_1_n_n.lhsIdx i q 0).val = (i 0).val := by
  unfold DotDims.lhsIdx
  rw [dif_neg (show ¬(0 : Fin S1024x500.rank) ∈ dot_S1024x500_S500x1_S1024x1_1_0_0_1_n_n.lhsBatch by decide), dif_pos (show (0 : Fin S1024x500.rank) ∈ dot_S1024x500_S500x1_S1024x1_1_0_0_1_n_n.lhsNonContracting by decide)]
  rfl
theorem mm2_lhs_1 (i : S1024x1.Idx) (q : dot_S1024x500_S500x1_S1024x1_1_0_0_1_n_n.contr.Idx) :
    (dot_S1024x500_S500x1_S1024x1_1_0_0_1_n_n.lhsIdx i q 1).val = (q ⟨0, by decide⟩).val :=
  dot_S1024x500_S500x1_S1024x1_1_0_0_1_n_n.lhsIdx_val_of_single rfl i q
theorem mm2_rhs_0 (i : S1024x1.Idx) (q : dot_S1024x500_S500x1_S1024x1_1_0_0_1_n_n.contr.Idx) :
    (dot_S1024x500_S500x1_S1024x1_1_0_0_1_n_n.rhsIdx i q 0).val = (q ⟨0, by decide⟩).val :=
  dot_S1024x500_S500x1_S1024x1_1_0_0_1_n_n.rhsIdx_val_of_single rfl i q
theorem mm2_rhs_1 (i : S1024x1.Idx) (q : dot_S1024x500_S500x1_S1024x1_1_0_0_1_n_n.contr.Idx) :
    (dot_S1024x500_S500x1_S1024x1_1_0_0_1_n_n.rhsIdx i q 1).val = (i 1).val := by
  unfold DotDims.rhsIdx
  rw [dif_neg (show ¬(1 : Fin S500x1.rank) ∈ dot_S1024x500_S500x1_S1024x1_1_0_0_1_n_n.rhsBatch by decide), dif_pos (show (1 : Fin S500x1.rank) ∈ dot_S1024x500_S500x1_S1024x1_1_0_0_1_n_n.rhsNonContracting by decide)]
  rfl

/-! ## The two contractions as sums -/

/-- The first contraction into a zero accumulator, at (p, c): row `p` of the left operand against column `c` of the right. -/
theorem mm1_apply (l : FVec Ideal S1024x512 .bf16) (r : FVec Ideal S512x500 .bf16) (p : Fin 1024) (c : Fin 500) :
    matmul dot_S1024x512_S512x500_S1024x500_1_0_0_1_n_n none l r (constant S1024x500 .f32 0x00000000#32) (ix2 p c)
      = ∑ k : Fin 512, l (ix2 p k) * r (ix2 k c) := by
  simp only [matmul]
  rw [Ideal.matmul_constant_zero_apply, ← Equiv.sum_comp (contrEquiv1 dot_S1024x512_S512x500_S1024x500_1_0_0_1_n_n 512 rfl rfl).symm]
  refine Finset.sum_congr rfl fun k _ => ?_
  have hk := contrEquiv1_symm_val dot_S1024x512_S512x500_S1024x500_1_0_0_1_n_n 512 rfl rfl k
  have el : dot_S1024x512_S512x500_S1024x500_1_0_0_1_n_n.lhsIdx (ix2 p c) ((contrEquiv1 dot_S1024x512_S512x500_S1024x500_1_0_0_1_n_n 512 rfl rfl).symm k) = ix2 p k := funext fun a => Fin.ext (by
    match a with
    | ⟨0, _⟩ => exact mm1_lhs_0 _ _
    | ⟨1, _⟩ => exact (mm1_lhs_1 _ _).trans hk)
  have er : dot_S1024x512_S512x500_S1024x500_1_0_0_1_n_n.rhsIdx (ix2 p c) ((contrEquiv1 dot_S1024x512_S512x500_S1024x500_1_0_0_1_n_n 512 rfl rfl).symm k) = ix2 k c := funext fun a => Fin.ext (by
    match a with
    | ⟨0, _⟩ => exact (mm1_rhs_0 _ _).trans hk
    | ⟨1, _⟩ => exact mm1_rhs_1 _ _)
  rw [el, er]

/-- The second contraction into a zero accumulator, at (p, c): row `p` of the left operand against column `c` of the right. -/
theorem mm2_apply (l : FVec Ideal S1024x500 .bf16) (r : FVec Ideal S500x1 .bf16) (p : Fin 1024) (c : Fin 1) :
    matmul dot_S1024x500_S500x1_S1024x1_1_0_0_1_n_n none l r (constant S1024x1 .f32 0x00000000#32) (ix2 p c)
      = ∑ k : Fin 500, l (ix2 p k) * r (ix2 k c) := by
  simp only [matmul]
  rw [Ideal.matmul_constant_zero_apply, ← Equiv.sum_comp (contrEquiv1 dot_S1024x500_S500x1_S1024x1_1_0_0_1_n_n 500 rfl rfl).symm]
  refine Finset.sum_congr rfl fun k _ => ?_
  have hk := contrEquiv1_symm_val dot_S1024x500_S500x1_S1024x1_1_0_0_1_n_n 500 rfl rfl k
  have el : dot_S1024x500_S500x1_S1024x1_1_0_0_1_n_n.lhsIdx (ix2 p c) ((contrEquiv1 dot_S1024x500_S500x1_S1024x1_1_0_0_1_n_n 500 rfl rfl).symm k) = ix2 p k := funext fun a => Fin.ext (by
    match a with
    | ⟨0, _⟩ => exact mm2_lhs_0 _ _
    | ⟨1, _⟩ => exact (mm2_lhs_1 _ _).trans hk)
  have er : dot_S1024x500_S500x1_S1024x1_1_0_0_1_n_n.rhsIdx (ix2 p c) ((contrEquiv1 dot_S1024x500_S500x1_S1024x1_1_0_0_1_n_n 500 rfl rfl).symm k) = ix2 k c := funext fun a => Fin.ext (by
    match a with
    | ⟨0, _⟩ => exact (mm2_rhs_0 _ _).trans hk
    | ⟨1, _⟩ => exact mm2_rhs_1 _ _)
  rw [el, er]

/-! ## The stored value at an index -/

/-- The body's one stored value at (p, q), as sums over the extended reals. -/
theorem pay_apply (x0 : Vec Ideal S1024x512 .f32) (x1 : Vec Ideal S512x500 .f32) (x2 : Vec Ideal S500 .f32)
    (x3 : Vec Ideal S500x1 .f32) (x4 : Vec Ideal S1 .f32) (p : Fin 1024) (q : Fin 1) :
    k0_pay1 (F := Ideal) x0 x1 x2 x3 x4 (ix2 p q)
      = (∑ h : Fin 500, ((∑ a : Fin 512, x0 (ix2 p a) * x1 (ix2 a h)) + x2 (ix1 h)) * x3 (ix2 h q)) + x4 (ix1 0) := by
  unfold k0_pay1
  rw [addf_apply, mm2_apply, broadcastTo_1b_ab_apply, shapeCast_a_1a_apply]
  congr 1
  · refine Finset.sum_congr rfl fun h _ => ?_
    rw [truncf_apply, truncf_apply, addf_apply, mm1_apply, broadcastTo_1b_ab_apply, shapeCast_a_1a_apply]
    rfl
  · -- the second bias has one entry
    rw [Subsingleton.elim q 0]

end Cert.KernelIdeal.Body

end
-- ==== Proof.Spec.lean ====
/-
  What both programs compute, as one function of the argument arrays and of a table of row numbers.

  For a row `r` of `x`, the two linear layers with no nonlinearity between them give the scalar

      rowValue r = (∑ h < 500, ((∑ a < 512, x[r, a] · W1[a, h]) + b1[h]) · W2[h, 0]) + b2[0]

  on the extended reals. The result has one entry per (window w < 3968, offset m < 128), at flat position
  w · 128 + m: the value of the row that the table's word at (w, m, 0) names — the word read signed and clamped into
  [0, 4095]. One program computes `rowValue` once per row and then reads rows by the table; the other reads rows of
  `x` by the table and then computes. Both are this function, the very same sums, so no law of the extended reals
  beyond re-indexing a finite sum is needed, and nothing about finiteness of the inputs.
-/
import Idealize.ShloMosaic.PureOps.Ideal
import Idealize.ShloMosaic.Lib.ValueIdx

noncomputable section

open scoped BigOperators

namespace Cert.Spec

open Idealize.ShloMosaic Idealize.ShloMosaic.ValueIdx

/-- The two-layer linear map of row `r` of `x`. -/
def rowValue (x : (⟨2, ![4096, 512]⟩ : Shape).Idx → EReal) (w1 : (⟨2, ![512, 500]⟩ : Shape).Idx → EReal)
    (b1 : (⟨1, ![500]⟩ : Shape).Idx → EReal) (w2 : (⟨2, ![500, 1]⟩ : Shape).Idx → EReal)
    (b2 : (⟨1, ![1]⟩ : Shape).Idx → EReal) (r : Fin 4096) : EReal :=
  (∑ h : Fin 500, ((∑ a : Fin 512, x (ix2 r a) * w1 (ix2 a h)) + b1 (ix1 h)) * w2 (ix2 h 0)) + b2 (ix1 0)

/-- The row a table's word at (w, m, 0) names: read signed, clamped into [0, 4095]. -/
def rowOf (tbl : IVec ⟨3, ![3968, 128, 1]⟩ 32) (w : Fin 3968) (m : Fin 128) : Fin 4096 :=
  ⟨min (tbl (ix3 w m 0)).toInt.toNat (4096 - 1), by omega⟩

/-- The window of a flat result position. -/
def winOf (i : (⟨2, ![507904, 1]⟩ : Shape).Idx) : Fin 3968 :=
  ⟨(i 0).val / 128, by have h : (i 0).val < 507904 := (i 0).isLt; show (i 0).val / 128 < 3968; omega⟩

/-- The offset inside its window of a flat result position. -/
def offOf (i : (⟨2, ![507904, 1]⟩ : Shape).Idx) : Fin 128 :=
  ⟨(i 0).val % 128, Nat.mod_lt _ (by decide)⟩

/-- The result: at flat position w · 128 + m, the value of the row the table names at (w, m). -/
def result (x : (⟨2, ![4096, 512]⟩ : Shape).Idx → EReal) (w1 : (⟨2, ![512, 500]⟩ : Shape).Idx → EReal)
    (b1 : (⟨1, ![500]⟩ : Shape).Idx → EReal) (w2 : (⟨2, ![500, 1]⟩ : Shape).Idx → EReal)
    (b2 : (⟨1, ![1]⟩ : Shape).Idx → EReal) (tbl : IVec ⟨3, ![3968, 128, 1]⟩ 32) :
    (⟨2, ![507904, 1]⟩ : Shape).Idx → EReal :=
  fun i => rowValue x w1 b1 w2 b2 (rowOf tbl (winOf i) (offOf i))

end Cert.Spec

end
-- ==== Proof.KernelArray.lean ====
/-
  The kernel's output array after the grid has run: entry (r, 0) is the two-layer map of row r of `x`.

  Grid point t holds rows t · 1024 … t · 1024 + 1023 of `x` and the whole of W1, b1, W2, b2; what it stores at (p, 0)
  is the two-layer map of its row p, which is row t · 1024 + p of `x`; and it writes its 1024 entries back to rows
  t · 1024 … of the output. The four blocks tile the 4096 rows (row r is in block r / 1024), so the whole array is
  the per-row map.
-/
import proofs.«123455_j62594853372269_1_alg».proof.Proof.Gen.KernelIdeal.Frame
import proofs.«123455_j62594853372269_1_alg».proof.Proof.KernelBody
import proofs.«123455_j62594853372269_1_alg».proof.Proof.Spec
import Idealize.ShloMosaic.Lib.Pipeline.Value
import Idealize.ShloMosaic.Lib.ValueIdx

set_option maxRecDepth 16384

noncomputable section

open scoped BigOperators

namespace Cert.KernelIdeal.Arr

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The offsets of a whole-buffer access are zero on both axes (and on the one axis of a vector). -/
theorem hz2 : (![0, 0] : Fin 2 → Nat) = fun _ => 0 := funext fun a => by fin_cases a <;> rfl
theorem hz1 : (![0] : Fin 1 → Nat) = fun _ => 0 := funext fun a => by fin_cases a; rfl

/-- The per-row values as the kernel's output array: entry (r, 0) is the two-layer map of row r. -/
def rowArr (c : Dev nD) : S4096x1.Idx → EReal := fun j =>
  Cert.Spec.rowValue (V m c main_arg0) (V m c main_arg1) (V m c main_arg2) (V m c main_arg3) (V m c main_arg4) (j 0)

/-- The printed index maps over the four grid points: the blocks of `x` and of the output move with the point along
    the rows; every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The row of `x` (and of the output) that grid point `t` holds at position `p` of its block. -/
def row (t : Fin cfg0.N) (p : Fin 1024) : Fin 4096 :=
  ⟨t.val * 1024 + p.val, by have ht : t.val < 4 := t.isLt; have hp := p.isLt; omega⟩

/-! ## What each window's block holds at a point -/

theorem blk_x (c : Dev nD) (t : Fin cfg0.N) (p : Fin 1024) (a : Fin 512) :
    iblk m c 0 t (ix2 p a) = V m c main_arg0 (ix2 (row t p) a) := by
  show V m c main_arg0 (((cfg0.win 0).blk t).view.emb (ix2 p a)) = V m c main_arg0 (ix2 (row t p) a)
  obtain ⟨e0, e1, -⟩ := idx_facts t
  refine congrArg _ (funext fun ax => Fin.ext ?_)
  match ax with
  | ⟨0, _⟩ => show win0_0.index t (0 : Fin 2) * 1024 + 1 * p.val = t.val * 1024 + p.val; omega
  | ⟨1, _⟩ => show win0_0.index t (1 : Fin 2) * 512 + 1 * a.val = a.val; omega

theorem blk_w1 (c : Dev nD) (t : Fin cfg0.N) (a : Fin 512) (h : Fin 500) :
    iblk m c 1 t (ix2 a h) = V m c main_arg1 (ix2 a h) := by
  show V m c main_arg1 (((cfg0.win 1).blk t).view.emb (ix2 a h)) = V m c main_arg1 (ix2 a h)
  obtain ⟨-, -, e2, e3, -⟩ := idx_facts t
  refine congrArg _ (funext fun ax => Fin.ext ?_)
  match ax with
  | ⟨0, _⟩ => show win0_1.index t (0 : Fin 2) * 512 + 1 * a.val = a.val; omega
  | ⟨1, _⟩ => show win0_1.index t (1 : Fin 2) * 500 + 1 * h.val = h.val; omega

theorem blk_b1 (c : Dev nD) (t : Fin cfg0.N) (h : Fin 500) :
    iblk m c 2 t (ix1 h) = V m c main_arg2 (ix1 h) := by
  show V m c main_arg2 (((cfg0.win 2).blk t).view.emb (ix1 h)) = V m c main_arg2 (ix1 h)
  obtain ⟨-, -, -, -, e4, -⟩ := idx_facts t
  refine congrArg _ (funext fun ax => Fin.ext ?_)
  match ax with
  | ⟨0, _⟩ => show win0_2.index t (0 : Fin 1) * 500 + 1 * h.val = h.val; omega

theorem blk_w2 (c : Dev nD) (t : Fin cfg0.N) (h : Fin 500) (q : Fin 1) :
    iblk m c 3 t (ix2 h q) = V m c main_arg3 (ix2 h q) := by
  show V m c main_arg3 (((cfg0.win 3).blk t).view.emb (ix2 h q)) = V m c main_arg3 (ix2 h q)
  obtain ⟨-, -, -, -, -, e5, e6, -⟩ := idx_facts t
  refine congrArg _ (funext fun ax => Fin.ext ?_)
  match ax with
  | ⟨0, _⟩ => show win0_3.index t (0 : Fin 2) * 500 + 1 * h.val = h.val; omega
  | ⟨1, _⟩ => show win0_3.index t (1 : Fin 2) * 1 + 1 * q.val = q.val; omega

theorem blk_b2 (c : Dev nD) (t : Fin cfg0.N) (u : Fin 1) :
    iblk m c 4 t (ix1 u) = V m c main_arg4 (ix1 u) := by
  show V m c main_arg4 (((cfg0.win 4).blk t).view.emb (ix1 u)) = V m c main_arg4 (ix1 u)
  obtain ⟨-, -, -, -, -, -, -, e7, -⟩ := idx_facts t
  refine congrArg _ (funext fun ax => Fin.ext ?_)
  match ax with
  | ⟨0, _⟩ => show win0_4.index t (0 : Fin 1) * 1 + 1 * u.val = u.val; omega

/-- Position (p, q) of the output's block at point `t` is entry (row t p, 0) of the output array. -/
theorem emb_out (t : Fin cfg0.N) (p : Fin 1024) (q : Fin 1) :
    ((cfg0.win 5).blk t).view.emb (ix2 p q) = ix2 (row t p) (0 : Fin 1) := by
  obtain ⟨-, -, -, -, -, -, -, -, e8, e9⟩ := idx_facts t
  have hq : q.val = 0 := by omega
  funext ax
  apply Fin.ext
  match ax with
  | ⟨0, _⟩ => show win0_5.index t (0 : Fin 2) * 1024 + 1 * p.val = t.val * 1024 + p.val; omega
  | ⟨1, _⟩ => show win0_5.index t (1 : Fin 2) * 1 + 1 * q.val = 0; omega

/-! ## From the blocks to the array -/

/-- What point `t` writes back is block `t` of the per-row array. -/
theorem flushed_eq (c : Dev nD) (t : Fin cfg0.N) :
    (dats m 0 c).flushed 5 t = ((cfg0.win 5).blk t).view.read (Elt Ideal) (rowArr m c) := by
  show (cfg0.win 5).cut (grid0.coords t) ((dats m 0 c).after 5 t) = _
  rw [after0_5]
  unfold out0_5
  rw [View.canon_unit_zero hz2]
  simp only [View.ld_unit_zero (S := S1024x512) hz2, View.ld_unit_zero (S := S512x500) hz2, View.ld_unit_zero (S := S500) hz1, View.ld_unit_zero (S := S500x1) hz2, View.ld_unit_zero (S := S1) hz1]
  funext j
  obtain ⟨p, q, rfl⟩ : ∃ (p : Fin 1024) (q : Fin 1), j = ix2 p q := ⟨j 0, j 1, eq_ix2 j⟩
  show k0_pay1 (iblk m c 0 t) (iblk m c 1 t) (iblk m c 2 t) (iblk m c 3 t) (iblk m c 4 t) (ix2 p q)
    = rowArr m c (((cfg0.win 5).blk t).view.emb (ix2 p q))
  refine (Cert.KernelIdeal.Body.pay_apply (iblk m c 0 t) (iblk m c 1 t) (iblk m c 2 t) (iblk m c 3 t) (iblk m c 4 t) p q).trans ?_
  rw [emb_out]
  show _ = Cert.Spec.rowValue (V m c main_arg0) (V m c main_arg1) (V m c main_arg2) (V m c main_arg3) (V m c main_arg4) (row t p)
  unfold Cert.Spec.rowValue
  -- the output block has one column
  obtain rfl : q = 0 := Subsingleton.elim q 0
  -- term by term: each factor is its window's block read at the point
  refine congrArg₂ (· + ·) (Finset.sum_congr rfl fun h _ => ?_) (blk_b2 m c t 0)
  refine congrArg₂ (· * ·) (congrArg₂ (· + ·) (Finset.sum_congr rfl fun a _ => ?_) (blk_b1 m c t h)) (blk_w2 m c t h 0)
  exact congrArg₂ (· * ·) (blk_x m c t p a) (blk_w1 m c t a h)

/-- An entry of the output array is in point `t`'s block iff each coordinate is in the block's range on its axis. -/
theorem mem_blk (t : Fin cfg0.N) (i : S4096x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v0).slice (win0_5.rect t)).set ↔ _
  rw [View.set_slice_whole, Rect.mem_set_unit]
  exact Iff.rfl

/-- Row r of the output is in the block of point r / 1024, and every point writes back. -/
theorem cover (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  refine ⟨⟨(i 0).val / 1024, by show (i 0).val / 1024 < 4; omega⟩, flush0_5 _, ?_⟩
  rw [mem_blk]
  obtain ⟨-, -, -, -, -, -, -, -, e8, e9⟩ := idx_facts ⟨(i 0).val / 1024, by show (i 0).val / 1024 < 4; omega⟩
  have e8' : win0_5.index ⟨(i 0).val / 1024, by show (i 0).val / 1024 < 4; omega⟩ (0 : Fin 2) = (i 0).val / 1024 := e8
  intro a
  match a with
  | ⟨0, _⟩ =>
    show win0_5.index _ (0 : Fin 2) * 1024 ≤ (i 0).val ∧ (i 0).val < win0_5.index _ (0 : Fin 2) * 1024 + 1024
    omega
  | ⟨1, _⟩ =>
    show win0_5.index _ (1 : Fin 2) * 1 ≤ (i 1).val ∧ (i 1).val < win0_5.index _ (1 : Fin 2) * 1 + 1
    omega

/-- The output array after the grid has run is the per-row array. -/
theorem final (c : Dev nD) : (dats m 0 c).arrAt 5 cfg0.N = rowArr m c :=
  (dats m 0 c).arrAt_eq_of_cover 5 (rowArr m c) (fun t _ => flushed_eq m c t) (cover)

end Cert.KernelIdeal.Arr

end
-- ==== Proof.LibGatherRows3.lean ====
/-
  A gather of rows under a table of row numbers laid out on two axes, read at one index.

  For a matrix `x : [N, D]` and a table of row numbers `idx : [A, B]`, the indexed read `x[idx]` is a gather whose
  start-index table has shape [A, B, 1] (the last axis is the index vector's, of length one) and whose result has
  shape [A, B, D]. The result at (a, b, c) is `x` at (the row the word idx[a, b, 0] names, c), where the row a word
  names is the word read signed and clamped into [0, N - 1].

  * `gather_rows3` : the gather read at (a, b, c).

  The operand index of a gather is, on each operand axis, the clamped start plus the batching coordinate plus the
  offset coordinate. The row axis is collapsed and is the one axis the index names: there the index is the clamped
  start alone. The column axis is kept and not named by the index: there it is the offset coordinate alone, which is
  the result's coordinate on its one offset axis. The statement is over ANY dimension-number record of the right type
  whose fields are given by hypotheses, so that it serves every size and every column count (D = 1 included).
-/
import Idealize.ShloMosaic.PureOps.Ideal
import Idealize.ShloMosaic.Lib.ValueIdx

noncomputable section

namespace Cert.LibGatherRows3

open Idealize.ShloMosaic Idealize.ShloMosaic.ValueIdx

/-- Every entry of a one-element list is that element. -/
theorem getElem_singleton_of_eq {α : Type} {l : List α} {x : α} (hl : l = [x]) (k : Nat) (h : k < l.length) : l[k] = x := by
  subst hl
  have hk : k = 0 := by simpa using h
  subst hk
  rfl

/-- In the list [0, 1] of axes, the entry at the position of axis `x` (one of the two) is `x`, the position being
    looked up in a second copy of the same list. -/
theorem getElem_idxOf_pair {l l' : List (Fin 3)} (hl : l = [0, 1]) (hl' : l' = [0, 1]) (x : Fin 3) (hx : x = 0 ∨ x = 1)
    (h : l'.idxOf x < l.length) : l[l'.idxOf x]'h = x := by
  subst hl hl'
  rcases hx with rfl | rfl <;> rfl

section Rows3

variable {N D A B w : Nat} (d : GatherDims ⟨2, ![N, D]⟩ ⟨3, ![A, B, 1]⟩ ⟨3, ![A, B, D]⟩)

/-- The start-index table is read at (the result's first coordinate, its second, 0). -/
theorem siIdx_rows3 (hoff : d.offsetDims = [2]) (hsim : d.startIndexMap = [0]) (hivd : d.indexVectorDim = 2)
    (a : Fin A) (b : Fin B) (c : Fin D) (k : Fin d.startIndexMap.length) :
    d.siIdx (ix3 a b c) k = ix3 a b 0 := by
  -- the result's batch axes are its first two, and so are the table's axes other than the index vector's
  have hbd : d.batchDims = [(0 : Fin 3), 1] := by
    change (⟨3, ![A, B, D]⟩ : Shape).kept d.offsetDims = [0, 1]
    rw [hoff]; rfl
  have hsk : d.siKept = [(0 : Fin 3), 1] := by
    change (List.finRange 3).filter (fun e : Fin 3 => decide (e.val ≠ d.indexVectorDim)) = [0, 1]
    rw [hivd]; rfl
  funext e
  match e with
  | ⟨0, _⟩ =>
    unfold GatherDims.siIdx
    rw [dif_neg (by rw [hivd]; simp)]
    unfold GatherDims.siCoord
    apply Fin.ext
    simp only [Fin.val_cast]
    have first : ∀ X : Fin 3, X = 0 → ((ix3 a b c : (⟨3, ![A, B, D]⟩ : Shape).Idx) X).val = a.val := by
      rintro _ rfl; rfl
    exact first _ (getElem_idxOf_pair hbd hsk _ (Or.inl rfl) _)
  | ⟨1, _⟩ =>
    unfold GatherDims.siIdx
    rw [dif_neg (by rw [hivd]; simp)]
    unfold GatherDims.siCoord
    apply Fin.ext
    simp only [Fin.val_cast]
    have second : ∀ X : Fin 3, X = 1 → ((ix3 a b c : (⟨3, ![A, B, D]⟩ : Shape).Idx) X).val = b.val := by
      rintro _ rfl; rfl
    exact second _ (getElem_idxOf_pair hbd hsk _ (Or.inr rfl) _)
  | ⟨2, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the column axis the offset coordinate is the result's third coordinate. -/
theorem offCoord_rows3 (hoff : d.offsetDims = [2]) (hcoll : d.collapsedSliceDims = [0]) (hob : d.operandBatchingDims = [])
    (a : Fin A) (b : Fin B) (c : Fin D) : d.offCoord (ix3 a b c) 1 = c.val := by
  have hk : (1 : Fin 2) ∈ d.sKept := by rw [GatherDims.mem_sKept, hcoll, hob]; simp
  unfold GatherDims.offCoord
  rw [dif_pos hk]
  have third : ∀ X : Fin 3, X = 2 → ((ix3 a b c : (⟨3, ![A, B, D]⟩ : Shape).Idx) X).val = c.val := by
    rintro _ rfl; rfl
  exact third _ (getElem_singleton_of_eq hoff _ _)

end Rows3

/-- A gather of rows under a two-axis table of row numbers, read at (a, b, c): the entry in column `c` of the row the
    word idx[a, b, 0] names, read signed and clamped into [0, N - 1]. -/
theorem gather_rows3 {α : Type} {N D A B w : Nat} (d : GatherDims ⟨2, ![N, D]⟩ ⟨3, ![A, B, 1]⟩ ⟨3, ![A, B, D]⟩)
    (hoff : d.offsetDims = [2]) (hcoll : d.collapsedSliceDims = [0]) (hob : d.operandBatchingDims = [])
    (hsim : d.startIndexMap = [0]) (hivd : d.indexVectorDim = 2)
    (x : (⟨2, ![N, D]⟩ : Shape).Idx → α) (idx : IVec ⟨3, ![A, B, 1]⟩ w) (a : Fin A) (b : Fin B) (c : Fin D) (hN : 0 < N) :
    Host.gather d x idx (ix3 a b c) = x (ix2 ⟨min (idx (ix3 a b 0)).toInt.toNat (N - 1), by omega⟩ c) := by
  have hb : ∀ e : Fin 2, e ∉ d.operandBatchingDims := fun e => by rw [hob]; exact List.not_mem_nil
  unfold Host.gather
  congr 1
  funext e
  apply Fin.ext
  revert e
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix3 a b c) idx 0 + d.batchCoord (ix3 a b c) 0 + d.offCoord (ix3 a b c) 0 = min (idx (ix3 a b 0)).toInt.toNat (N - 1)
    rw [GatherDims.batchCoord_eq_zero _ _ _ (hb 0), GatherDims.offCoord_eq_zero _ _ _ hk]
    simp only [Nat.add_zero]
    unfold GatherDims.start
    rw [dif_pos hm, siIdx_rows3 d hoff hsim hivd a b c, hsl]
    rfl
  · -- the column axis: kept and not named by the index, so the offset coordinate alone
    have hm : (1 : Fin 2) ∉ d.startIndexMap := by rw [hsim]; simp
    change d.start (ix3 a b c) idx 1 + d.batchCoord (ix3 a b c) 1 + d.offCoord (ix3 a b c) 1 = c.val
    rw [GatherDims.batchCoord_eq_zero _ _ _ (hb 1), offCoord_rows3 d hoff hcoll hob a b c, Nat.add_zero]
    unfold GatherDims.start
    rw [dif_neg hm, Nat.zero_add]

end Cert.LibGatherRows3

end
-- ==== Proof.KernelTail.lean ====
/-
  The kernel program's result: the host lines after the grid, read at an index.

  After the grid has run the output array holds the two-layer map of every row of `x`. The host lines then build the
  table of row numbers (window number plus offset, normalised as an indexed read normalises a negative index), read
  the output array's rows by that table, and lay the [3968, 128, 1] result out flat. So the entry at flat position
  w · 128 + m is the per-row value of the row the table's word at (w, m, 0) names: the specification's result, with
  this program's table.
-/
import proofs.«123455_j62594853372269_1_alg».proof.Proof.KernelArray
import proofs.«123455_j62594853372269_1_alg».proof.Proof.LibGatherRows3
import Idealize.ShloMosaic.Lib.StableHlo.Run
import Idealize.ShloMosaic.Lib.Pipeline.FrameSuffix

set_option maxRecDepth 16384

noncomputable section

namespace Cert.KernelIdeal.Tail

open Cert.KernelIdeal Cert.KernelIdeal.Gen Cert.KernelIdeal.Arr Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The table of row numbers the host lines build: at (w, m, 0) the word w + m, with 4096 added where that is negative. -/
abbrev tbl : IVec S3968x128x1 32 :=
  broadcastInDim S3968x128x1 ![0, 1] bcast_S3968x128_S3968x128x1_0_1 (select (cmpi .slt (addi (broadcastInDim S3968x128 ![0, 1] bcast_S3968x1_S3968x128_0_1 (broadcastInDim S3968x1 ![0] bcast_S3968_S3968x1_0 (iotaInDim S3968 32 0))) (broadcastInDim S3968x128 ![0, 1] bcast_S1x128_S3968x128_0_1 (broadcastInDim S1x128 ![1] bcast_S128_S1x128_1 (iotaInDim S128 32 0)))) (broadcastInDim S3968x128 ![] bcast_S_S3968x128 (constantI S_ 32 0#32))) (addi (addi (broadcastInDim S3968x128 ![0, 1] bcast_S3968x1_S3968x128_0_1 (broadcastInDim S3968x1 ![0] bcast_S3968_S3968x1_0 (iotaInDim S3968 32 0))) (broadcastInDim S3968x128 ![0, 1] bcast_S1x128_S3968x128_0_1 (broadcastInDim S1x128 ![1] bcast_S128_S1x128_1 (iotaInDim S128 32 0)))) (broadcastInDim S3968x128 ![] bcast_S_S3968x128 (constantI S_ 32 4096#32))) (addi (broadcastInDim S3968x128 ![0, 1] bcast_S3968x1_S3968x128_0_1 (broadcastInDim S3968x1 ![0] bcast_S3968_S3968x1_0 (iotaInDim S3968 32 0))) (broadcastInDim S3968x128 ![0, 1] bcast_S1x128_S3968x128_0_1 (broadcastInDim S1x128 ![1] bcast_S128_S1x128_1 (iotaInDim S128 32 0)))))

/-- The result buffer is no window's array, -/
theorem ne_arr : ∀ w : Fin 6, (spec0 w).arr.view.ref ≠ main_v15 := by decide

/-- so it is among the buffers the region leaves to the lines after it. -/
theorem in_rest : main_v15 ∈ Pipeline.restRefs sig (cfgs 0).spec :=
  Pipeline.mem_restRefs_of (win := spec0) main_v15 rfl ne_arr

/-- The lines after the region, composed: the output array's rows read by the table, laid out flat. -/
theorem tail_term (c : Dev nD) :
    Pipeline.afterTail₀ cfgs (dats m) 0 (V0 m) [hostOps1] c main_v15
      = shapeCast S507904x1 (Host.gather gather_S4096x1_S3968x128x1_S3968x128x1_2_0_n_n_0_2_11 (rowArr m c) tbl) shapeCasts_S3968x128x1_S507904x1 := by
  have hw : Pipeline.withArrays (cfgs 0).spec c (V0 m c) (fun w => (dats m 0 c).arrAt w (cfgs 0).N) (Proc.devRef .tc main_v0) = rowArr m c :=
    (Pipeline.withArrays_arr spec0 launch0.win.arr_inj c _ _ 5).trans (final m c)
  unfold Pipeline.afterTail₀
  simp only [List.flatten_cons, List.flatten_nil, List.append_nil]
  simp only [hostOps1]
  after_results_simp
  rw [hw]
  rfl

/-- Read at flat position i = w · 128 + m: the per-row value of the row the table names at (w, m). -/
theorem tail_value (c : Dev nD) :
    shapeCast S507904x1 (Host.gather gather_S4096x1_S3968x128x1_S3968x128x1_2_0_n_n_0_2_11 (rowArr m c) tbl) shapeCasts_S3968x128x1_S507904x1
      = Cert.Spec.result (V m c main_arg0) (V m c main_arg1) (V m c main_arg2) (V m c main_arg3) (V m c main_arg4) tbl := by
  funext i
  have h0 : (i 0).val < 507904 := (i 0).isLt
  have h1 : (i 1).val < 1 := (i 1).isLt
  refine (shapeCast_apply _ shapeCasts_S3968x128x1_S507904x1 i (ix3 (Cert.Spec.winOf i) (Cert.Spec.offOf i) (0 : Fin 1)) ?_).trans ?_
  · rewrite [Shape.rowMajor_val_three, Shape.rowMajor_val_two]
    show ((i 0).val / 128 * 128 + (i 0).val % 128) * 1 + 0 = (i 0).val * 1 + (i 1).val
    omega
  · exact Cert.LibGatherRows3.gather_rows3 gather_S4096x1_S3968x128x1_S3968x128x1_2_0_n_n_0_2_11 rfl rfl rfl rfl rfl (rowArr m c) tbl _ _ 0 (by decide)

/-- The kernel program's run, re-posted: the result at the specification's function of the arguments, the arguments
    unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) tbl
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).2 main_v15 in_rest).trans ((tail_term m c).trans (tail_value m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Tail

end
-- ==== Proof.RefValue.lean ====
/-
  The reference's result, read index by index at the ideal instance.

  The reference reads rows of `x` by the table of row numbers, contracts each row with W1, adds b1, contracts with
  W2, adds b2, and lays the [3968, 128, 1] result out flat. At flat position i = w · 128 + m that is

      (∑ h < 500, ((∑ a < 512, x[row(w, m), a] · W1[a, h]) + b1[h]) · W2[h, 0]) + b2[0],

  where row(w, m) is the row the table's word at (w, m, 0) names: the specification's result, with the reference's
  own table.
-/
import proofs.«123455_j62594853372269_1_alg».proof.Proof.Gen.ReferenceIdeal.Read
import proofs.«123455_j62594853372269_1_alg».proof.Proof.LibGatherRows3
import proofs.«123455_j62594853372269_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx

/-- The reference's table of row numbers. -/
abbrev tbl : IVec ⟨3, ![3968, 128, 1]⟩ 32 := Read.val_main_v12 (F := Ideal)

/-- The gathered rows of `x`, at (w, m, a): row `rowOf tbl w m` of `x`, column a. -/
theorem rows_apply (x0 : (⟨S4096x512, .f32⟩ : BufTy).Contents (Elt Ideal)) (w : Fin 3968) (mm : Fin 128) (a : Fin 512) :
    Read.val_main_v13 (F := Ideal) x0 (ix3 w mm a) = x0 (ix2 (Cert.Spec.rowOf tbl w mm) a) := by
  unfold Read.val_main_v13
  exact Cert.LibGatherRows3.gather_rows3 gather_S4096x512_S3968x128x1_S3968x128x512_2_0_n_n_0_2_1512 rfl rfl rfl rfl rfl x0 _ w mm a (by decide)

/-! ## Where each stage reads its operands, for flat position `i` and contracted coordinates `h`, `a` -/

theorem at_rows (i : S507904x1.Idx) (h : Fin 500) (a : Fin 512) :
    lidx_main_v14 (lidx_main_v18 (idx_main_v22 i) h) a = ix3 (Cert.Spec.winOf i) (Cert.Spec.offOf i) a := by
  have h1 : (i 1).val < 1 := (i 1).isLt
  funext e
  match e with
  | ⟨0, _⟩ => exact Fin.ext (show ((i 0).val * 1 + (i 1).val) / 128 = (i 0).val / 128 by omega)
  | ⟨1, _⟩ => exact Fin.ext (show ((i 0).val * 1 + (i 1).val) / 1 % 128 = (i 0).val % 128 by omega)
  | ⟨2, _⟩ => rfl

theorem at_w1 (i : S507904x1.Idx) (h : Fin 500) (a : Fin 512) :
    ridx_main_v14 (lidx_main_v18 (idx_main_v22 i) h) a = ix2 a h := by
  funext e
  match e with
  | ⟨0, _⟩ => rfl
  | ⟨1, _⟩ => rfl

theorem at_b1 (i : S507904x1.Idx) (h : Fin 500) :
    idx_main_v15 (idx_main_v16 (lidx_main_v18 (idx_main_v22 i) h)) = ix1 h := by
  funext e
  match e with
  | ⟨0, _⟩ => rfl

theorem at_w2 (i : S507904x1.Idx) (h : Fin 500) :
    ridx_main_v18 (idx_main_v22 i) h = ix2 h (0 : Fin 1) := by
  funext e
  match e with
  | ⟨0, _⟩ => rfl
  | ⟨1, _⟩ => rfl

theorem at_b2 (i : S507904x1.Idx) :
    idx_main_v19 (idx_main_v20 (idx_main_v22 i)) = ix1 (0 : Fin 1) := by
  funext e
  match e with
  | ⟨0, _⟩ => rfl

/-- The reference's result is the specification's, with the reference's table. -/
theorem result_eq (x0 : (⟨S4096x512, .f32⟩ : BufTy).Contents (Elt Ideal)) (x1 : (⟨S512x500, .f32⟩ : BufTy).Contents (Elt Ideal))
    (x2 : (⟨S500, .f32⟩ : BufTy).Contents (Elt Ideal)) (x3 : (⟨S500x1, .f32⟩ : BufTy).Contents (Elt Ideal))
    (x4 : (⟨S1, .f32⟩ : BufTy).Contents (Elt Ideal)) :
    Read.val_main_v22 (F := Ideal) x0 x1 x2 x3 x4 = Cert.Spec.result x0 x1 x2 x3 x4 tbl := by
  funext i
  rw [val_main_v22_apply, val_main_v21_apply, val_main_v18_apply, val_main_v20_apply, val_main_v19_apply, at_b2]
  show _ + _ = _
  unfold Cert.Spec.result Cert.Spec.rowValue
  congr 1
  refine Finset.sum_congr rfl fun h _ => ?_
  rw [val_main_v17_apply, val_main_v14_apply, val_main_v16_apply, val_main_v15_apply, at_b1, at_w2]
  show (_ + _) * _ = _
  congr 2
  refine Finset.sum_congr rfl fun a _ => ?_
  rw [at_rows, at_w1, rows_apply]

end Cert.ReferenceIdeal.RefValue

end
-- ==== Proof.lean ====
/-
  The kernel and its reference compute the same function over the extended reals.

  Both programs take x : [4096, 512], W1 : [512, 500], b1 : [500], W2 : [500, 1], b2 : [1] and return, for every
  window w < 3968 and offset m < 128, at flat position w · 128 + m, the two linear layers applied to row w + m of x:

      (∑ h < 500, ((∑ a < 512, x[r, a] · W1[a, h]) + b1[h]) · W2[h, 0]) + b2[0].

  The reference gathers the rows of x window by window and applies the layers to every gathered row. The kernel
  applies the layers once to each of the 4096 rows (in four blocks of 1024 rows; its changes of float format are the
  identity on the extended reals and its contractions start from a zero accumulator) and then gathers the 4096
  scalars window by window. Both read their rows through the same table of row numbers and the same clamped read,
  so at every position both are the per-row value of the same row, as the very same sums: no law of the extended reals
  beyond re-indexing a finite sum is used, and the finiteness of the inputs is not needed.

  Proof/Spec.lean states the function; Proof/KernelBody.lean, Proof/KernelArray.lean and Proof/KernelTail.lean read the
  kernel's result (one grid point's store, the output array after the grid, the host lines after it);
  Proof/RefValue.lean reads the reference's; Proof/LibGatherRows3.lean is the indexed read of rows under a two-axis
  table, used on both sides. The idealization rewrote nothing, so the kernel's idealized program is its own text read
  over the extended reals.
-/
import proofs.«123455_j62594853372269_1_alg».proof.Defs
import proofs.«123455_j62594853372269_1_alg».proof.Proof.Gen.Kernel
import proofs.«123455_j62594853372269_1_alg».proof.Proof.Gen.Kernel.Frame
import proofs.«123455_j62594853372269_1_alg».proof.Proof.Gen.KernelIdeal
import proofs.«123455_j62594853372269_1_alg».proof.Proof.Gen.KernelIdeal.Frame
import proofs.«123455_j62594853372269_1_alg».proof.Proof.Gen.ReferenceIdeal
import proofs.«123455_j62594853372269_1_alg».proof.Proof.Gen.ReferenceIdeal.Run
import proofs.«123455_j62594853372269_1_alg».proof.Proof.Gen.Pre_finite_inputs
import proofs.«123455_j62594853372269_1_alg».proof.Proof.KernelTail
import proofs.«123455_j62594853372269_1_alg».proof.Proof.RefValue
import Idealize.ShloMosaic.Adequacy
import Idealize.ShloMosaic.Init

noncomputable section

namespace Cert.Proof

open Idealize.ShloMosaic Idealize.ShloMosaic.TcCoe Idealize.SL.Sem

/-- The two programs build the same table of row numbers: the same operations on the same constants. -/
theorem tbl_eq : (Cert.ReferenceIdeal.RefValue.tbl : IVec ⟨3, ![3968, 128, 1]⟩ 32) = Cert.KernelIdeal.Tail.tbl := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the specification's function of the arguments. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, tbl_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
